-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4000x1024 : Shape := ⟨3, ![8, 4000, 1024]⟩
abbrev S5x800 : Shape := ⟨2, ![5, 800]⟩
abbrev S1024 : Shape := ⟨1, ![1024]⟩
abbrev S_ : Shape := ⟨0, ![]⟩

class Facts : Prop where
  bcast_S_S8x4000x1024 : S_.BroadcastsInDim S8x4000x1024 (![] : Fin 0 → Fin S8x4000x1024.rank)
  reducesTo_S8x4000x1024_S_d0_1_2 : S8x4000x1024.ReducesTo [0, 1, 2] S_
  h_S_ : 0 < S_.numel
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S8x4000x1024 .f32) (main_arg1 : IVec S5x800 32) (main_arg2 : FVec F S1024 .f32) (main_arg3 : FVec F S1024 .f32) : IVec S_ 1 :=
  let main_v0 : FVec F S8x4000x1024 .f32 := Host.absf main_arg0
  let main_cst : FVec F S_ .f32 := constant S_ .f32 0x7F800000#32
  let main_v1 : FVec F S8x4000x1024 .f32 := broadcastInDim S8x4000x1024 ![] bcast_S_S8x4000x1024 main_cst
  let main_v2 : IVec S8x4000x1024 1 := cmpf .olt main_v0 main_v1
  let main_c : IVec S_ 1 := constantI S_ 1 1#1
  let main_v3 : IVec S_ 1 := (fun x v => Host.reduce IntOp.andi x v reducesTo_S8x4000x1024_S_d0_1_2 h_S_) main_v2 main_c
  let main_v4 : FVec F S1024 .f32 := Host.absf main_arg2
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  main_v13
-- ==== Kernel.lean ====
abbrev S8x4000x1024 : Shape := ⟨3, ![8, 4000, 1024]⟩
abbrev S5x800 : Shape := ⟨2, ![5, 800]⟩
abbrev S1024 : Shape := ⟨1, ![1024]⟩
abbrev S1x800x1024 : Shape := ⟨3, ![1, 800, 1024]⟩
abbrev S800x1024 : Shape := ⟨2, ![800, 1024]⟩
abbrev S800 : Shape := ⟨1, ![800]⟩
abbrev S800x1 : Shape := ⟨2, ![800, 1]⟩
abbrev S1 : Shape := ⟨1, ![1]⟩
abbrev S1x1 : Shape := ⟨2, ![1, 1]⟩
abbrev S1x1024 : Shape := ⟨2, ![1, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8x4000x1024, .f32⟩
  | .hbm, ⟨1, _⟩ => ⟨S5x800, .i32⟩
  | .hbm, ⟨2, _⟩ => ⟨S1024, .f32⟩
  | .hbm, ⟨3, _⟩ => ⟨S1024, .f32⟩
  | .hbm, ⟨4, _⟩ => ⟨S8x4000x1024, .f32⟩
  | .local _ .vmem, ⟨0, _⟩ => ⟨S1x800x1024, .f32⟩
  | .local _ .vmem, ⟨1, _⟩ => ⟨S1x800x1024, .f32⟩
  | .local _ .vmem, ⟨2, _⟩ => ⟨S1024, .f32⟩
  | .local _ .vmem, ⟨3, _⟩ => ⟨S1024, .f32⟩
  | .local _ .vmem, ⟨4, _⟩ => ⟨S1x800x1024, .f32⟩
  | .local _ .vmem, ⟨5, _⟩ => ⟨S1x800x1024, .f32⟩
  | _, _ => ⟨S8x4000x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![8, 5], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x800x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x800x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  inb_S1x800x1024_S1x800x1024_0_0_0 : ∀ a, (![0, 0, 0] : Fin 3 → Nat) a + S1x800x1024.size a ≤ S1x800x1024.size a
  h_S1x800x1024 : 0 < S1x800x1024.numel
  shapeCasts_S1x800x1024_S800x1024 : S1x800x1024.ShapeCasts S800x1024
  reduces_S800x1024_S800 : S800x1024.Reduces [1] S800
  shapeCasts_S800_S800x1 : S800.ShapeCasts S800x1
  broadcasts_S800x1_S800x1024 : S800x1.Broadcasts S800x1024
  reduces_S800x1_S1 : S800x1.Reduces [0] S1
  shapeCasts_S1_S1x1 : S1.ShapeCasts S1x1
  broadcasts_S1x1_S800x1024 : S1x1.Broadcasts S800x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S800x1024 : S1x1024.Broadcasts S800x1024
  shapeCasts_S800x1024_S1x800x1024 : S800x1024.ShapeCasts S1x800x1024
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x800x1024.size a ≤ S8x4000x1024.size a
  hwx0_0 : ∀ i : grid0.Coords, EltTy.bits .f32 = 32 ∨ (Rect.block (s := S8x4000x1024) S1x800x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024.size a ≤ S1024.size a
  hwx0_1 : ∀ i : grid0.Coords, EltTy.bits .f32 = 32 ∨ (Rect.block (s := S1024) S1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S1024.size a
  hwx0_2 : ∀ i : grid0.Coords, EltTy.bits .f32 = 32 ∨ (Rect.block (s := S1024) S1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x800x1024.size a ≤ S8x4000x1024.size a
  hwx0_3 : ∀ i : grid0.Coords, EltTy.bits .f32 = 32 ∨ (Rect.block (s := S8x4000x1024) S1x800x1024.size (cc0_transform_3 i) (hinb0_3 i)).WholeWords (EltTy.packing .f32)

variable [Facts₀]

abbrev win0_0 : Pipeline.Window sig grid0 :=
  Pipeline.Window.ofSpec (Memref.whole main_arg0) S1x800x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x800x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x4000x1024 : Shape := ⟨3, ![8, 4000, 1024]⟩
abbrev S5x800 : Shape := ⟨2, ![5, 800]⟩
abbrev S1024 : Shape := ⟨1, ![1024]⟩
abbrev S_ : Shape := ⟨0, ![]⟩
abbrev S8x4000 : Shape := ⟨2, ![8, 4000]⟩
abbrev S8x4000x1 : Shape := ⟨3, ![8, 4000, 1]⟩
abbrev S8x5x800x1024 : Shape := ⟨4, ![8, 5, 800, 1024]⟩
abbrev S8x5 : Shape := ⟨2, ![8, 5]⟩
abbrev S8x5x1x1 : Shape := ⟨4, ![8, 5, 1, 1]⟩
abbrev S1x1x1024 : Shape := ⟨3, ![1, 1, 1024]⟩

abbrev nBuf : Space → Nat
  | .hbm => 65
  | .vmem => 0
  | .smem => 0
  | _ => 0

abbrev bufTy : (tb : Table) → Fin (tcTables nBuf tb) → BufTy
  | .hbm, ⟨0, _⟩ => ⟨S8x4000x1024, .f32⟩
  | .hbm, ⟨1, _⟩ => ⟨S5x800, .i32⟩
  | .hbm, ⟨2, _⟩ => ⟨S1024, .f32⟩
  | .hbm, ⟨3, _⟩ => ⟨S1024, .f32⟩
  | .hbm, ⟨4, _⟩ => ⟨S_, .f32⟩
  | .hbm, ⟨5, _⟩ => ⟨S8x4000, .f32⟩
  | .hbm, ⟨6, _⟩ => ⟨S8x4000x1, .f32⟩
  | .hbm, ⟨7, _⟩ => ⟨S_, .f32⟩
  | .hbm, ⟨8, _⟩ => ⟨S8x4000x1, .f32⟩
  | .hbm, ⟨9, _⟩ => ⟨S8x4000x1, .f32⟩
  | .hbm, ⟨10, _⟩ => ⟨S8x4000x1024, .f32⟩
  | .hbm, ⟨11, _⟩ => ⟨S8x4000x1024, .f32⟩
  | .hbm, ⟨12, _⟩ => ⟨S8x4000x1024, .f32⟩
  | .hbm, ⟨13, _⟩ => ⟨S_, .f32⟩
  | .hbm, ⟨14, _⟩ => ⟨S8x4000, .f32⟩
  | .hbm, ⟨15, _⟩ => ⟨S8x4000x1, .f32⟩
  | .hbm, ⟨16, _⟩ => ⟨S_, .f32⟩
  | .hbm, ⟨17, _⟩ => ⟨S8x4000x1, .f32⟩
  | .hbm, ⟨18, _⟩ => ⟨S8x4000x1, .f32⟩
  | .hbm, ⟨19, _⟩ => ⟨S8x4000x1024, .f32⟩
  | .hbm, ⟨20, _⟩ => ⟨S8x4000x1024, .f32⟩
  | .hbm, ⟨21, _⟩ => ⟨S_, .f32⟩
  | .hbm, ⟨22, _⟩ => ⟨S8x4000x1, .f32⟩
  | .hbm, ⟨23, _⟩ => ⟨S8x4000x1, .f32⟩
  | .hbm, ⟨24, _⟩ => ⟨S8x4000x1, .f32⟩
  | .hbm, ⟨25, _⟩ => ⟨S8x4000x1024, .f32⟩
  | .hbm, ⟨26, _⟩ => ⟨S8x4000x1024, .f32⟩
  | .hbm, ⟨27, _⟩ => ⟨S8x5x800x1024, .f32⟩
  | .hbm, ⟨28, _⟩ => ⟨S_, .f32⟩
  | .hbm, ⟨29, _⟩ => ⟨S8x5, .f32⟩
  | .hbm, ⟨30, _⟩ => ⟨S8x5x1x1, .f32⟩
  | .hbm, ⟨31, _⟩ => ⟨S_, .f32⟩
  | .hbm, ⟨32, _⟩ => ⟨S8x5x1x1, .f32⟩
  | .hbm, ⟨33, _⟩ => ⟨S8x5x1x1, .f32⟩
  | .hbm, ⟨34, _⟩ => ⟨S8x5x800x1024, .f32⟩
  | .hbm, ⟨35, _⟩ => ⟨S8x5x800x1024, .f32⟩
  | .hbm, ⟨36, _⟩ => ⟨S8x5x800x1024, .f32⟩
  | .hbm, ⟨37, _⟩ => ⟨S_, .f32⟩
  | .hbm, ⟨38, _⟩ => ⟨S8x5, .f32⟩
  | .hbm, ⟨39, _⟩ => ⟨S8x5x1x1, .f32⟩
  | .hbm, ⟨40, _⟩ => ⟨S_, .f32⟩
  | .hbm, ⟨41, _⟩ => ⟨S8x5x1x1, .f32⟩
  | .hbm, ⟨42, _⟩ => ⟨S8x5x1x1, .f32⟩
  | .hbm, ⟨43, _⟩ => ⟨S8x5x800x1024, .f32⟩
  | .hbm, ⟨44, _⟩ => ⟨S8x5x800x1024, .f32⟩
  | .hbm, ⟨45, _⟩ => ⟨S_, .f32⟩
  | .hbm, ⟨46, _⟩ => ⟨S8x5x1x1, .f32⟩
  | .hbm, ⟨47, _⟩ => ⟨S8x5x1x1, .f32⟩
  | .hbm, ⟨48, _⟩ => ⟨S8x5x1x1, .f32⟩
  | .hbm, ⟨49, _⟩ => ⟨S8x5x800x1024, .f32⟩
  | .hbm, ⟨50, _⟩ => ⟨S8x5x800x1024, .f32⟩
  | .hbm, ⟨51, _⟩ => ⟨S8x4000x1024, .f32⟩
  | .hbm, ⟨52, _⟩ => ⟨S_, .f32⟩
  | .hbm, ⟨53, _⟩ => ⟨S8x4000x1024, .f32⟩
  | .hbm, ⟨54, _⟩ => ⟨S8x4000x1024, .f32⟩
  | .hbm, ⟨55, _⟩ => ⟨S_, .f32⟩
  | .hbm, ⟨56, _⟩ => ⟨S8x4000x1024, .f32⟩
  | .hbm, ⟨57, _⟩ => ⟨S8x4000x1024, .f32⟩
  | .hbm, ⟨58, _⟩ => ⟨S8x4000x1024, .f32⟩
  | .hbm, ⟨59, _⟩ => ⟨S1x1x1024, .f32⟩
  | .hbm, ⟨60, _⟩ => ⟨S8x4000x1024, .f32⟩
  | .hbm, ⟨61, _⟩ => ⟨S8x4000x1024, .f32⟩
  | .hbm, ⟨62, _⟩ => ⟨S1x1x1024, .f32⟩
  | .hbm, ⟨63, _⟩ => ⟨S8x4000x1024, .f32⟩
  | .hbm, ⟨64, _⟩ => ⟨S8x4000x1024, .f32⟩
  | _, _ => ⟨S8x4000x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_6 : Ref sig .tc := ⟨.hbm, 37, rfl⟩
abbrev main_v26 : Ref sig .tc := ⟨.hbm, 38, rfl⟩
abbrev main_v27 : Ref sig .tc := ⟨.hbm, 39, rfl⟩
abbrev main_cst_7 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_8 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_9 : Ref sig .tc := ⟨.hbm, 52, rfl⟩
abbrev main_v38 : Ref sig .tc := ⟨.hbm, 53, rfl⟩
abbrev main_v39 : Ref sig .tc := ⟨.hbm, 54, rfl⟩
abbrev main_cst_10 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩

abbrev nD : Nat := 1
abbrev τ : Topo := Topo.v7x

variable {F : FTy → Type} [FloatOps F]

class Facts₀ : Prop where
  reducesTo_S8x4000x1024_S8x4000_d2 : S8x4000x1024.ReducesTo [2] S8x4000
  h_S_ : 0 < S_.numel
  bcast_S8x4000_S8x4000x1_0_1 : S8x4000.BroadcastsInDim S8x4000x1 (![0, 1] : Fin 2 → Fin S8x4000x1.rank)
  bcast_S_S8x4000x1 : S_.BroadcastsInDim S8x4000x1 (![] : Fin 0 → Fin S8x4000x1.rank)
  bcast_S8x4000x1_S8x4000x1024_0_1_2 : S8x4000x1.BroadcastsInDim S8x4000x1024 (![0, 1, 2] : Fin 3 → Fin S8x4000x1024.rank)
  shapeCasts_S8x4000x1024_S8x5x800x1024 : S8x4000x1024.ShapeCasts S8x5x800x1024
  reducesTo_S8x5x800x1024_S8x5_d2_3 : S8x5x800x1024.ReducesTo [2, 3] S8x5
  bcast_S8x5_S8x5x1x1_0_1 : S8x5.BroadcastsInDim S8x5x1x1 (![0, 1] : Fin 2 → Fin S8x5x1x1.rank)
  bcast_S_S8x5x1x1 : S_.BroadcastsInDim S8x5x1x1 (![] : Fin 0 → Fin S8x5x1x1.rank)
  bcast_S8x5x1x1_S8x5x800x1024_0_1_2_3 : S8x5x1x1.BroadcastsInDim S8x5x800x1024 (![0, 1, 2, 3] : Fin 4 → Fin S8x5x800x1024.rank)
  shapeCasts_S8x5x800x1024_S8x4000x1024 : S8x5x800x1024.ShapeCasts S8x4000x1024
  bcast_S_S8x4000x1024 : S_.BroadcastsInDim S8x4000x1024 (![] : Fin 0 → Fin S8x4000x1024.rank)
  bcast_S1024_S1x1x1024_2 : S1024.BroadcastsInDim S1x1x1024 (![2] : Fin 1 → Fin S1x1x1024.rank)
  bcast_S1x1x1024_S8x4000x1024_0_1_2 : S1x1x1024.BroadcastsInDim S8x4000x1024 (![0, 1, 2] : Fin 3 → Fin S8x4000x1024.rank)

variable [Facts₀]

class Facts : Prop extends Facts₀ where

variable [Facts]
-- ==== Proof.LibKeepdims.lean ====
/-
  Layout and reduction forms that a `keepdims=True` reduction meets, read at an index written by coordinates.

  A sum kept as a column — `[a]` viewed as `[a, 1]` — and that column, or a single `[1, 1]` cell, spread
  back over an `[a, b]` block read one entry of the smaller array; and a host sum over the last two axes of a
  rank-4 array is, at each index of the two axes kept, the double sum over the two coordinates dropped (every
  index that drops to `(p, q)` is `(p, q, l, k)` for exactly one pair `(l, k)`).
-/
import Idealize.ShloMosaic.Lib.Pipeline.Value
import Idealize.ShloMosaic.Lib.ValueIdx
import Idealize.ShloMosaic.PureOps.Ideal.Laws

noncomputable section

open scoped BigOperators

namespace Cert.LibKeepdims

open Idealize.ShloMosaic Idealize.ShloMosaic.ValueIdx

variable {α : Type}

/-! ## A column made of a vector, and spread over a block -/

/-- A vector `[a]` cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column `[a, 1]` broadcast to `[a, b]` reads, at `(i, j)`, the column's entry of row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- A single cell `[1, 1]` broadcast to `[a, b]` reads that cell at every index. -/
theorem broadcastTo_11_ab_apply {a b : ℕ} (v : (⟨2, ![1, 1]⟩ : Shape).Idx → α) (h : (⟨2, ![1, 1]⟩ : Shape).Broadcasts ⟨2, ![a, b]⟩)
    (i : Fin a) (j : Fin b) : broadcastTo ⟨2, ![a, b]⟩ v h (ix2 i j) = v (ix2 (0 : Fin 1) (0 : Fin 1)) := by
  refine broadcastTo_apply v h (ix2 i j) (ix2 (0 : Fin 1) (0 : Fin 1)) fun ax => ?_
  match ax with
  | ⟨0, _⟩ => rfl
  | ⟨1, _⟩ => rfl

/-! ## A host sum over the last two of four axes -/

/-- The host's float sum over axes 2 and 3 of an `[a, b, c, d]` array, at `(p, q)`: the initial value plus the
    sum over `l` and `k` of the operand at `(p, q, l, k)`. The indices that drop to `(p, q)` correspond one to
    one to the pairs `(l, k)` of their last two coordinates. -/
theorem hostReduceAdd_lastTwo {a b c d : ℕ}
    (h : (⟨4, ![a, b, c, d]⟩ : Shape).ReducesTo [2, 3] ⟨2, ![a, b]⟩)
    (x : (⟨4, ![a, b, c, d]⟩ : Shape).Idx → EReal) (init : EReal) (p : Fin a) (q : Fin b) :
    Ideal.hostReduceAdd h x init (ix2 p q) = init + ∑ l : Fin c, ∑ k : Fin d, x (ix4 p q l k) := by
  unfold Ideal.hostReduceAdd
  refine congrArg (init + ·) ?_
  rw [← Finset.sum_product' (Finset.univ : Finset (Fin c)) (Finset.univ : Finset (Fin d)) (fun l k => x (ix4 p q l k))]
  -- the axes kept are 0 and 1, whatever the extents: a dropped index has the source's first two coordinates
  have d0 : ∀ i : (⟨4, ![a, b, c, d]⟩ : Shape).Idx, (h.drop i 0 : ℕ) = i 0 := fun _ => rfl
  have d1 : ∀ i : (⟨4, ![a, b, c, d]⟩ : Shape).Idx, (h.drop i 1 : ℕ) = i 1 := fun _ => rfl
  refine Finset.sum_nbij' (fun i => (i 2, i 3)) (fun lk => ix4 p q lk.1 lk.2) ?_ ?_ ?_ ?_ ?_
  · intro i _; exact Finset.mem_product.2 ⟨Finset.mem_univ _, Finset.mem_univ _⟩
  · intro lk _
    refine Finset.mem_filter.2 ⟨Finset.mem_univ _, funext fun ax => Fin.ext ?_⟩
    match ax with
    | ⟨0, _⟩ => exact d0 _
    | ⟨1, _⟩ => exact d1 _
  · intro i hi
    have hj := (Finset.mem_filter.1 hi).2
    funext ax; apply Fin.ext
    match ax with
    | ⟨0, _⟩ => show p.val = (i 0).val; rw [← d0 i, hj]; rfl
    | ⟨1, _⟩ => show q.val = (i 1).val; rw [← d1 i, hj]; rfl
    | ⟨2, _⟩ => rfl
    | ⟨3, _⟩ => rfl
  · intro lk _; rfl
  · intro i hi
    have hj := (Finset.mem_filter.1 hi).2
    refine congrArg x ?_
    funext ax; apply Fin.ext
    match ax with
    | ⟨0, _⟩ => show (i 0).val = p.val; rw [← d0 i, hj]; rfl
    | ⟨1, _⟩ => show (i 1).val = q.val; rw [← d1 i, hj]; rfl
    | ⟨2, _⟩ => rfl
    | ⟨3, _⟩ => rfl

end Cert.LibKeepdims

end
-- ==== Proof.NormSpec.lean ====
/-
  The function both programs compute, index by index, over the extended reals.

  The input `X` is an `[8, 4000, 1024]` array: 8 batches of 4000 rows of 1024 features. Each batch's rows fall into
  5 consecutive slabs of 800 rows: row `t` lies in slab `t / 800` at position `t % 800`. Two normalisations are
  blended, entry by entry:
  * the ROW normalisation — an entry minus its row's mean, times the reciprocal square root of the row's
    variance plus `ε`, mean and variance taken over the row's 1024 entries;
  * the SLAB normalisation — the same with mean and variance taken jointly over the 800 · 1024 entries of the
    entry's slab;
  and the result is `(½ · slab + ½ · row) · W d + B d` with `W`, `B` indexed by the feature `d`.
  The four constants are kept as the binary words both programs print (1024, 819200, ε, ½): each occurs in the
  same place on both sides, so none is ever evaluated.
-/
import Idealize.ShloMosaic.PureOps.Ideal
import Idealize.ShloMosaic.Lib.ValueIdx

noncomputable section

open scoped BigOperators

namespace Cert.BlendNorm

open Idealize.ShloMosaic Idealize.ShloMosaic.ValueIdx

/-- The number of features of a row, 1024, as the programs write it. -/
abbrev featCount : EReal := Ideal.ofBits .f32 0x44800000#32
/-- The number of entries of a slab, 800 · 1024 = 819200, as the programs write it. -/
abbrev slabCount : EReal := Ideal.ofBits .f32 0x49480000#32
/-- The variance offset `ε`, as the programs write it. -/
abbrev eps : EReal := Ideal.ofBits .f32 0x3727C5AC#32
/-- The blend weight ½, as the programs write it. -/
abbrev half : EReal := Ideal.ofBits .f32 0x3F000000#32

/-- The mean of a row's 1024 entries. -/
def rowMean (r : Fin 1024 → EReal) : EReal := Ideal.div (∑ k, r k) featCount

/-- A row normalised over its own entries, at feature `d`. -/
def rowNorm (r : Fin 1024 → EReal) (d : Fin 1024) : EReal :=
  (r d - rowMean r) * Ideal.rsqrt (Ideal.div (∑ k, (r k - rowMean r) * (r k - rowMean r)) featCount + eps)

/-- The mean of a slab's 800 · 1024 entries. -/
def slabMean (s : Fin 800 → Fin 1024 → EReal) : EReal := Ideal.div (∑ l, ∑ k, s l k) slabCount

/-- A slab normalised jointly over all its entries, at row `l` and feature `d`. -/
def slabNorm (s : Fin 800 → Fin 1024 → EReal) (l : Fin 800) (d : Fin 1024) : EReal :=
  (s l d - slabMean s) * Ideal.rsqrt (Ideal.div (∑ l', ∑ k, (s l' k - slabMean s) * (s l' k - slabMean s)) slabCount + eps)

/-- The blend of the two normalised values, scaled and shifted by the feature's weight and bias. -/
def blend (g t w b : EReal) : EReal := (half * g + half * t) * w + b

/-- The slab a row lies in, its position there, and the row at a position of a slab. -/
def slabOf (t : Fin 4000) : Fin 5 := ⟨t.val / 800, by have := t.isLt; omega⟩
def posOf (t : Fin 4000) : Fin 800 := ⟨t.val % 800, by omega⟩
def rowOf (g : Fin 5) (l : Fin 800) : Fin 4000 := ⟨g.val * 800 + l.val, by have := g.isLt; have := l.isLt; omega⟩

/-- The result array: at `(b, t, d)` the blend of the slab normalisation of batch `b`'s slab `t / 800`, read at
    position `t % 800`, and of the row normalisation of row `(b, t)`, with feature `d`'s weight and bias. -/
def result (X : (⟨3, ![8, 4000, 1024]⟩ : Shape).Idx → EReal) (W B : (⟨1, ![1024]⟩ : Shape).Idx → EReal) :
    (⟨3, ![8, 4000, 1024]⟩ : Shape).Idx → EReal := fun i =>
  blend (slabNorm (fun l k => X (ix3 (i 0) (rowOf (slabOf (i 1)) l) k)) (posOf (i 1)) (i 2))
    (rowNorm (fun k => X (ix3 (i 0) (i 1) k)) (i 2)) (W (ix1 (i 2))) (B (ix1 (i 2)))

end Cert.BlendNorm

end
-- ==== Proof.KernelBlock.lean ====
/-
  What the kernel body leaves in its output block, entry by entry.

  The body loads one slab — a `[1, 800, 1024]` block — and the weight and bias vectors, and stores one block of the
  same shape. Read at `(u, l, d)`, what it stores is the blend of the slab normalisation of the loaded block at
  `(l, d)` and the row normalisation of the block's row `l` at `d`, times the weight at `d` plus the bias at `d`.
  The body takes each mean by summing along the features first (a lane sum kept as a column) and, for the slab,
  then along the rows (a column sum kept as one cell): exactly the double sum the slab normalisation is written
  with, so no rearrangement is needed on this side.
-/
import proofs.«100849_j57166014710001_1_alg».proof.Proof.Gen.KernelIdeal.Frame
import proofs.«100849_j57166014710001_1_alg».proof.Proof.LibKeepdims
import proofs.«100849_j57166014710001_1_alg».proof.Proof.NormSpec
import Idealize.ShloMosaic.Lib.ValueLayout
import Idealize.ShloMosaic.PureOps.Ideal.Laws

noncomputable section

open scoped BigOperators

namespace Cert.KernelIdeal.BlockValue

open Cert.KernelIdeal Cert.KernelIdeal.Gen Idealize.ShloMosaic Idealize.ShloMosaic.ValueIdx
open Cert.BlendNorm Cert.LibKeepdims

/-! ## The two sums of the body, kept as a column and as a cell -/

/-- Summing a `[800, 1024]` block along its features and keeping the sums as a column: at row `l` the sum of the
    row's 1024 entries. -/
theorem laneSum_col (v : FVec Ideal S800x1024 .f32) (hφ : FKind.Formats .f32)
    (hacc : (0x00000000#32 : BitVec 32) = 0x00000000#32) (l : Fin 800) (u : Fin 1) :
    shapeCast S800x1 (multiReduction .add [1] S800 v 0x00000000#32 reduces_S800x1024_S800 hφ hacc) shapeCasts_S800_S800x1 (ix2 l u)
      = ∑ k : Fin 1024, v (ix2 l k) := by
  refine (shapeCast_a_a1_apply _ shapeCasts_S800_S800x1 l u).trans ?_
  refine (Ideal.multiReduction_add_single v 0x00000000#32 reduces_S800x1024_S800 hφ hacc (ix1 l)).trans ?_
  exact Finset.sum_congr rfl fun k _ => congrArg v (funext fun a => Fin.ext (by match a with | ⟨0, _⟩ => rfl | ⟨1, _⟩ => rfl))

/-- Summing a column `[800, 1]` along its rows and keeping the sum as one cell: the sum of the column's 800 entries. -/
theorem colSum_cell (w : FVec Ideal S800x1 .f32) (hφ : FKind.Formats .f32)
    (hacc : (0x00000000#32 : BitVec 32) = 0x00000000#32) (u u' : Fin 1) :
    shapeCast S1x1 (multiReduction .add [0] S1 w 0x00000000#32 reduces_S800x1_S1 hφ hacc) shapeCasts_S1_S1x1 (ix2 u u')
      = ∑ l : Fin 800, w (ix2 l (0 : Fin 1)) := by
  refine (shapeCast_a_1a_apply _ shapeCasts_S1_S1x1 u u').trans ?_
  refine (Ideal.multiReduction_add_single w 0x00000000#32 reduces_S800x1_S1 hφ hacc (ix1 u')).trans ?_
  exact Finset.sum_congr rfl fun l _ => congrArg w (funext fun a => Fin.ext (by
    match a with
    | ⟨0, _⟩ => rfl
    | ⟨1, _⟩ => show (u' : ℕ) = 0; omega))

/-- The lane sums kept as a column, as one vector: row `i 0` of the column holds that row's sum. -/
theorem laneSum_fun (v : FVec Ideal S800x1024 .f32) :
    shapeCast S800x1 (multiReduction .add [1] S800 v 0x00000000#32 reduces_S800x1024_S800 (.inl rfl) rfl) shapeCasts_S800_S800x1
      = fun i => ∑ k : Fin 1024, v (ix2 (i 0) k) := by
  funext i
  obtain ⟨l, u, rfl⟩ : ∃ (l : Fin 800) (u : Fin 1), i = ix2 l u := ⟨i 0, i 1, eq_ix2 i⟩
  exact laneSum_col v (.inl rfl) rfl l u

/-- The column sum kept as one cell, as one vector: the cell holds the sum of the column's entries. -/
theorem colSum_fun (w : FVec Ideal S800x1 .f32) :
    shapeCast S1x1 (multiReduction .add [0] S1 w 0x00000000#32 reduces_S800x1_S1 (.inl rfl) rfl) shapeCasts_S1_S1x1
      = fun _ => ∑ l : Fin 800, w (ix2 l (0 : Fin 1)) := by
  funext i
  obtain ⟨u, u', rfl⟩ : ∃ (u u' : Fin 1), i = ix2 u u' := ⟨i 0, i 1, eq_ix2 i⟩
  exact colSum_cell w (.inl rfl) rfl u u'

/-! ## The payloads at an index -/

/-- The loaded block viewed as `[800, 1024]`: at `(l, k)` the block's entry `(0, l, k)`. -/
theorem slabView_apply (x0 : Vec Ideal S1x800x1024 .f32) (l : Fin 800) (k : Fin 1024) :
    k0_pay2 (F := Ideal) x0 (ix2 l k) = x0 (ix3 (0 : Fin 1) l k) := by
  unfold k0_pay2
  exact shapeCast_1ab_ab_apply x0 shapeCasts_S1x800x1024_S800x1024 l k

/-- The body's first normalised value, at `(l, d)`: row `l` of the block normalised over its own entries. -/
theorem rowPart_apply (x0 : Vec Ideal S1x800x1024 .f32) (l : Fin 800) (d : Fin 1024) :
    k0_pay3 (F := Ideal) x0 (ix2 l d) = rowNorm (fun k => x0 (ix3 (0 : Fin 1) l k)) d := by
  unfold k0_pay3 rowNorm rowMean
  dsimp only
  rw [laneSum_fun, laneSum_fun]
  simp only [mulf_apply, subf_apply, addf_apply, divf_apply, broadcast_apply, rsqrt, broadcastTo_a1_ab_apply,
    slabView_apply]
  rfl

/-- The body's second normalised value, at `(l, d)`: the whole block normalised jointly, read at `(l, d)`. -/
theorem slabPart_apply (x0 : Vec Ideal S1x800x1024 .f32) (l : Fin 800) (d : Fin 1024) :
    k0_pay4 (F := Ideal) x0 (ix2 l d) = slabNorm (fun l' k => x0 (ix3 (0 : Fin 1) l' k)) l d := by
  unfold k0_pay4 slabNorm slabMean
  dsimp only
  rw [colSum_fun, colSum_fun, laneSum_fun, laneSum_fun]
  simp only [mulf_apply, subf_apply, addf_apply, divf_apply, broadcast_apply, rsqrt, broadcastTo_11_ab_apply,
    slabView_apply]
  rfl

/-- The stored value, at `(u, l, d)`: the blend of the two, with the weight and bias of feature `d`. -/
theorem stored_apply (x0 : Vec Ideal S1x800x1024 .f32) (x1 x2 : Vec Ideal S1024 .f32) (u : Fin 1) (l : Fin 800) (d : Fin 1024) :
    k0_pay1 (F := Ideal) (k0_pay3 x0) (k0_pay4 x0) x1 x2 (Scalar.ofBits .f32 0x3F000000#32) (ix3 u l d)
      = blend (slabNorm (fun l' k => x0 (ix3 (0 : Fin 1) l' k)) l d) (rowNorm (fun k => x0 (ix3 (0 : Fin 1) l k)) d)
          (x1 (ix1 d)) (x2 (ix1 d)) := by
  unfold k0_pay1 blend
  simp only [shapeCast_ab_1ab_apply, mulf_apply, addf_apply, broadcast_apply, broadcastTo_1b_ab_apply, shapeCast_a_1a_apply,
    rowPart_apply, slabPart_apply]
  rfl

/-! ## The output block -/

theorem zeros3 : (![0, 0, 0] : Fin 3 → ℕ) = fun _ => 0 := funext fun a => by fin_cases a <;> rfl
theorem zeros1 : (![0] : Fin 1 → ℕ) = fun _ => 0 := funext fun a => by fin_cases a <;> rfl

/-- The body's one store covers the whole output block, so the block after the body is the stored value: at
    `(u, l, d)` the blend above of the loaded block, weight and bias. -/
theorem out_apply (x0 : Vec Ideal S1x800x1024 .f32) (x1 x2 : Vec Ideal S1024 .f32) (u : Fin 1) (l : Fin 800) (d : Fin 1024) :
    out0_3 (F := Ideal) x0 x1 x2 (ix3 u l d)
      = blend (slabNorm (fun l' k => x0 (ix3 (0 : Fin 1) l' k)) l d) (rowNorm (fun k => x0 (ix3 (0 : Fin 1) l k)) d)
          (x1 (ix1 d)) (x2 (ix1 d)) := by
  unfold out0_3
  rw [View.canon_unit_zero zeros3]
  simp only [View.ld_unit_zero (S := S1x800x1024) zeros3, View.ld_unit_zero (S := S1024) zeros1]
  exact stored_apply x0 x1 x2 u l d

end Cert.KernelIdeal.BlockValue

end
-- ==== Proof.KernelValue.lean ====
/-
  From the blocks to the whole array: after the run the kernel's output array is the blended normalisation of
  the argument arrays.

  The grid has 8 · 5 points. Point `(b, g)` fetches slab `g` of batch `b` — the rows `800 g … 800 g + 799` of
  `X[b]`, a `[1, 800, 1024]` block — and the whole weight and bias vectors, and writes the block of the output at
  the same place. An index `(0, l, d)` of that block is the array index `(b, 800 g + l, d)`, whose slab is `g`
  and whose position in it is `l`: so what the body stores there, the blend of the block's joint normalisation
  and of its row `l`'s, is the specification at that array index. The 40 blocks tile the array (row `t` of
  batch `b` lies in the block of point `(b, t / 800)`), so the array ends holding the specification everywhere.
-/
import proofs.«100849_j57166014710001_1_alg».proof.Proof.Gen.KernelIdeal.Value
import proofs.«100849_j57166014710001_1_alg».proof.Proof.KernelBlock

noncomputable section

open scoped BigOperators

namespace Cert.KernelIdeal.ArrayValue

open Cert.KernelIdeal Cert.KernelIdeal.Gen Idealize.ShloMosaic Idealize.ShloMosaic.TcCoe Idealize.SL.Sem
open Idealize.ShloMosaic.ValueIdx
open Idealize.ShloMosaic.Pipeline (Dat)
open Cert.BlendNorm

variable (m : (ℓ : Loc nD τ sig) → Buf (Elt Ideal) ℓ) (ρ : Dev nD → PrngReg)

/-! ## The specification at an index given by its slab and position -/

/-- At an array index whose coordinates are `b`, `800 g + l` and `d`, the specification reads slab `g` of batch `b`
    at position `l`, and row `800 g + l`. -/
theorem result_at (X : (⟨3, ![8, 4000, 1024]⟩ : Shape).Idx → EReal) (W B : (⟨1, ![1024]⟩ : Shape).Idx → EReal)
    (b : Fin 8) (g : Fin 5) (l : Fin 800) (d : Fin 1024) (i : (⟨3, ![8, 4000, 1024]⟩ : Shape).Idx)
    (h0 : (i 0).val = b.val) (h1 : (i 1).val = g.val * 800 + l.val) (h2 : (i 2).val = d.val) :
    result X W B i
      = blend (slabNorm (fun l' k => X (ix3 b (rowOf g l') k)) l d) (rowNorm (fun k => X (ix3 b (rowOf g l) k)) d)
          (W (ix1 d)) (B (ix1 d)) := by
  have hi : i = ix3 b (rowOf g l) d := funext fun a => Fin.ext (by
    match a with | ⟨0, _⟩ => exact h0 | ⟨1, _⟩ => exact h1 | ⟨2, _⟩ => exact h2)
  subst hi
  have hg : slabOf (rowOf g l) = g := Fin.ext (by
    show (g.val * 800 + l.val) / 800 = g.val
    have := l.isLt; omega)
  have hl : posOf (rowOf g l) = l := Fin.ext (by
    show (g.val * 800 + l.val) % 800 = l.val
    have := l.isLt; omega)
  show blend (slabNorm (fun l' k => X (ix3 b (rowOf (slabOf (rowOf g l)) l') k)) (posOf (rowOf g l)) d)
      (rowNorm (fun k => X (ix3 b (rowOf g l) k)) d) (W (ix1 d)) (B (ix1 d)) = _
  rw [hg, hl]

/-! ## The printed index maps, decided over the 40 grid points -/

/-- The input slab's block index is the output's on the batch and slab axes; neither moves along the features; the
    weight and bias windows stay at their one block; and the output's block indices stay inside `8 × 5`. -/
theorem idx_facts : ∀ t : Fin cfg0.N,
    win0_0.index t (0 : Fin 3) = win0_3.index t (0 : Fin 3)
    ∧ win0_0.index t (1 : Fin 3) = win0_3.index t (1 : Fin 3)
    ∧ win0_0.index t (2 : Fin 3) = 0
    ∧ win0_3.index t (2 : Fin 3) = 0
    ∧ win0_1.index t (0 : Fin 1) = 0
    ∧ win0_2.index t (0 : Fin 1) = 0
    ∧ win0_3.index t (0 : Fin 3) < 8
    ∧ win0_3.index t (1 : Fin 3) < 5 :=
  (by decide +kernel : ∀ t : Fin grid0.N, _)

/-- Every batch and slab is some point's output block. -/
theorem idx_onto : ∀ (b : Fin 8) (g : Fin 5), ∃ t : Fin cfg0.N, win0_3.index t = ![b.val, g.val, 0] :=
  (by decide +kernel : ∀ (b : Fin 8) (g : Fin 5), ∃ t : Fin grid0.N, win0_3.index t = ![b.val, g.val, 0])

/-! ## The input blocks at a point, read off the argument arrays -/

/-- The three input blocks at point `t`, at their literal shapes. -/
abbrev slabBlk (c : Dev nD) (t : Fin cfg0.N) : Vec Ideal S1x800x1024 .f32 := iblk m c 0 t
abbrev weightBlk (c : Dev nD) (t : Fin cfg0.N) : Vec Ideal S1024 .f32 := iblk m c 1 t
abbrev biasBlk (c : Dev nD) (t : Fin cfg0.N) : Vec Ideal S1024 .f32 := iblk m c 2 t

/-- The slab block of the point whose output block is `(b, g)`: its entry `(0, l, k)` is `X[b, 800 g + l, k]`. -/
theorem slabBlk_at (c : Dev nD) (t : Fin cfg0.N) (b : Fin 8) (g : Fin 5)
    (hb : win0_3.index t (0 : Fin 3) = b.val) (hg : win0_3.index t (1 : Fin 3) = g.val) (l : Fin 800) (k : Fin 1024) :
    slabBlk m c t (ix3 (0 : Fin 1) l k) = V m c main_arg0 (ix3 b (rowOf g l) k) := by
  obtain ⟨e0, e1, e2, -⟩ := idx_facts t
  show V m c main_arg0 (((cfg0.win 0).blk t).view.emb (ix3 (0 : Fin 1) l k)) = _
  refine congrArg (V m c main_arg0) (funext fun a => Fin.ext ?_)
  match a with
  | ⟨0, _⟩ => show win0_0.index t (0 : Fin 3) * 1 + 1 * 0 = b.val; omega
  | ⟨1, _⟩ => show win0_0.index t (1 : Fin 3) * 800 + 1 * l.val = g.val * 800 + l.val; omega
  | ⟨2, _⟩ => show win0_0.index t (2 : Fin 3) * 1024 + 1 * k.val = k.val; omega

/-- The weight block at any point is the whole weight vector. -/
theorem weightBlk_at (c : Dev nD) (t : Fin cfg0.N) (d : Fin 1024) :
    weightBlk m c t (ix1 d) = V m c main_arg2 (ix1 d) := by
  obtain ⟨-, -, -, -, e4, -⟩ := idx_facts t
  show V m c main_arg2 (((cfg0.win 1).blk t).view.emb (ix1 d)) = _
  refine congrArg (V m c main_arg2) (funext fun a => Fin.ext ?_)
  match a with
  | ⟨0, _⟩ => show win0_1.index t (0 : Fin 1) * 1024 + 1 * d.val = d.val; omega

/-- The bias block at any point is the whole bias vector. -/
theorem biasBlk_at (c : Dev nD) (t : Fin cfg0.N) (d : Fin 1024) :
    biasBlk m c t (ix1 d) = V m c main_arg3 (ix1 d) := by
  obtain ⟨-, -, -, -, -, e5, -⟩ := idx_facts t
  show V m c main_arg3 (((cfg0.win 2).blk t).view.emb (ix1 d)) = _
  refine congrArg (V m c main_arg3) (funext fun a => Fin.ext ?_)
  match a with
  | ⟨0, _⟩ => show win0_2.index t (0 : Fin 1) * 1024 + 1 * d.val = d.val; omega

/-! ## What a point writes back is its block of the specification -/

theorem flushed_eq (c : Dev nD) (t : Fin cfg0.N) :
    (dats m 0 c).flushed 3 t
      = ((cfg0.win 3).blk t).view.read (Elt Ideal) (result (V m c main_arg0) (V m c main_arg2) (V m c main_arg3)) := by
  rw [Value.flushed3]
  obtain ⟨e0, e1, e2, e3, e4, e5, e6, e7⟩ := idx_facts t
  funext y
  show out0_3 (iblk m c 0 t) (iblk m c 1 t) (iblk m c 2 t) y
      = result (V m c main_arg0) (V m c main_arg2) (V m c main_arg3) (((cfg0.win 3).blk t).view.emb y)
  obtain ⟨u, l, d, rfl⟩ : ∃ (u : Fin 1) (l : Fin 800) (d : Fin 1024), y = ix3 u l d := ⟨y 0, y 1, y 2, eq_ix3 y⟩
  have hu : u.val = 0 := by omega
  refine (BlockValue.out_apply (slabBlk m c t) (weightBlk m c t) (biasBlk m c t) u l d).trans ?_
  refine Eq.trans ?_ (result_at (V m c main_arg0) (V m c main_arg2) (V m c main_arg3)
    ⟨win0_3.index t (0 : Fin 3), e6⟩ ⟨win0_3.index t (1 : Fin 3), e7⟩ l d _ ?_ ?_ ?_).symm
  · exact congr (congr (congr (congrArg blend
        (congrArg (fun S => slabNorm S l d) (funext fun l' => funext fun k => slabBlk_at m c t _ _ rfl rfl l' k)))
        (congrArg (fun R => rowNorm R d) (funext fun k => slabBlk_at m c t _ _ rfl rfl l k)))
        (weightBlk_at m c t d)) (biasBlk_at m c t d)
  · show win0_3.index t (0 : Fin 3) * 1 + 1 * u.val = win0_3.index t (0 : Fin 3); omega
  · show win0_3.index t (1 : Fin 3) * 800 + 1 * l.val = win0_3.index t (1 : Fin 3) * 800 + l.val; omega
  · show win0_3.index t (2 : Fin 3) * 1024 + 1 * d.val = d.val; omega

/-! ## The blocks tile the array -/

/-- An array index is in point `t`'s block iff each coordinate is in the block's range on its axis. -/
theorem mem_blk (t : Fin cfg0.N) (i : S8x4000x1024.Idx) :
    i ∈ ((cfg0.win 3).blk t).view.set ↔ ∀ a : Fin 3, win0_3.index t a * S1x800x1024.size a ≤ (i a).val
      ∧ (i a).val < win0_3.index t a * S1x800x1024.size a + S1x800x1024.size a := by
  show i ∈ ((View.whole main_v0).slice (win0_3.rect t)).set ↔ _
  rw [View.set_slice_whole, Rect.mem_set_unit]
  exact Iff.rfl

/-- Every array index `(b, t, d)` lies in the block of the point whose output block is `(b, t / 800)`. -/
theorem cover (i : S8x4000x1024.Idx) :
    ∃ t : Fin cfg0.N, (cfg0.win 3).flush t = true ∧ i ∈ ((cfg0.win 3).blk t).view.set := by
  have h0 : (i 0).val < 8 := (i 0).isLt
  have h1 : (i 1).val < 4000 := (i 1).isLt
  have h2 : (i 2).val < 1024 := (i 2).isLt
  obtain ⟨t, ht⟩ := idx_onto ⟨(i 0).val, h0⟩ ⟨(i 1).val / 800, by omega⟩
  have q0 : win0_3.index t (0 : Fin 3) = (i 0).val := congrFun ht 0
  have q1 : win0_3.index t (1 : Fin 3) = (i 1).val / 800 := congrFun ht 1
  have q2 : win0_3.index t (2 : Fin 3) = 0 := congrFun ht 2
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 800 ≤ (i 1).val ∧ (i 1).val < win0_3.index t (1 : Fin 3) * 800 + 800; omega
  | ⟨2, _⟩ => show win0_3.index t (2 : Fin 3) * 1024 ≤ (i 2).val ∧ (i 2).val < win0_3.index t (2 : Fin 3) * 1024 + 1024; omega

/-! ## The array after the run, and the run -/

/-- After the run the output array is the specification of the argument arrays as launched. -/
theorem final (c : Dev nD) :
    (dats m 0 c).arrAt 3 cfg0.N
      = result (m ((c : Thread nD τ).loc main_arg0)) (m ((c : Thread nD τ).loc main_arg2)) (m ((c : Thread nD τ).loc main_arg3)) :=
  (dats m 0 c).arrAt_eq_of_cover 3 _ (fun t _ => flushed_eq m c t) cover

/-- Every weakly fair execution of the idealized kernel terminates with the output array at the specification and
    the argument arrays unchanged. -/
theorem run : θ_run defs (onTc (τ := τ) (main (F := Ideal))) ⟨m, fun _ => 0, ρ⟩ fun r => ∀ c : Dev nD,
      r.2.mem ((c : Thread nD τ).loc main_v0)
        = result (m ((c : Thread nD τ).loc main_arg0)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.ArrayValue

end
-- ==== Proof.RefValue.lean ====
/-
  The reference's result, index by index, is the blended normalisation.

  The reference computes the row normalisation on the `[8, 4000, 1024]` array and the slab normalisation on its
  `[8, 5, 800, 1024]` view, whose entry `(b, g, l, k)` is the array's entry `(b, 800 g + l, k)`; the slab's mean and
  variance are host sums over the view's last two axes, read here as double sums over `l` and `k`. Every host sum
  starts from the zero word, which denotes `0`, so it is the bare sum. Each stage is read at an index written
  by coordinates, in program order, and the last stage is the specification `result`.
-/
import proofs.«100849_j57166014710001_1_alg».proof.Proof.Gen.ReferenceIdeal.Read
import proofs.«100849_j57166014710001_1_alg».proof.Proof.LibKeepdims
import proofs.«100849_j57166014710001_1_alg».proof.Proof.NormSpec
import Idealize.ShloMosaic.PureOps.Ideal.Laws

noncomputable section

open scoped BigOperators

namespace Cert.ReferenceIdeal.RefValue

open Cert.ReferenceIdeal Cert.ReferenceIdeal.Read Idealize.ShloMosaic Idealize.ShloMosaic.ValueIdx
open Cert.BlendNorm Cert.LibKeepdims

variable (X : (⟨S8x4000x1024, .f32⟩ : BufTy).Contents (Elt Ideal))

/-- The zero word a host sum starts from denotes `0`. -/
theorem zeroWord : (FloatOps.ofBits (F := Ideal) .f32 0x00000000#32 : EReal) = 0 := Ideal.ofBits_zero_f32

/-! ## The row normalisation -/

/-- The sum of row `(b, t)`. -/
theorem rowSum_at (b : Fin 8) (t : Fin 4000) : val_main_v0 (F := Ideal) X (ix2 b t) = ∑ k : Fin 1024, X (ix3 b t k) := by
  rw [val_main_v0_apply, val_main_cst_apply, zeroWord, zero_add]
  exact Finset.sum_congr rfl fun k _ => congrArg X (funext fun a => Fin.ext (by
    match a with | ⟨0, _⟩ => rfl | ⟨1, _⟩ => rfl | ⟨2, _⟩ => rfl))

/-- The mean of row `(b, t)`, kept in a column. -/
theorem rowMean_at (b : Fin 8) (t : Fin 4000) (u : Fin 1) :
    val_main_v3 (F := Ideal) X (ix3 b t u) = rowMean (fun k => X (ix3 b t k)) := by
  have e : idx_main_v1 (ix3 b t u) = ix2 b t := funext fun a => Fin.ext (by match a with | ⟨0, _⟩ => rfl | ⟨1, _⟩ => rfl)
  rw [val_main_v3_apply, val_main_v1_apply, e, rowSum_at, val_main_v2_apply, val_main_cst_0_apply]
  rfl

/-- An entry minus its row's mean (the stage that is squared). -/
theorem centred_at (b : Fin 8) (t : Fin 4000) (k : Fin 1024) :
    val_main_v5 (F := Ideal) X (ix3 b t k) = X (ix3 b t k) - rowMean (fun k' => X (ix3 b t k')) := by
  have e : idx_main_v4 (ix3 b t k) = ix3 b t (0 : Fin 1) := funext fun a => Fin.ext (by
    match a with | ⟨0, _⟩ => rfl | ⟨1, _⟩ => rfl | ⟨2, _⟩ => rfl)
  rw [val_main_v5_apply, val_main_v4_apply, e, rowMean_at]
  rfl

/-- An entry minus its row's mean (the stage that is scaled). -/
theorem centred'_at (b : Fin 8) (t : Fin 4000) (k : Fin 1024) :
    val_main_v12 (F := Ideal) X (ix3 b t k) = X (ix3 b t k) - rowMean (fun k' => X (ix3 b t k')) := by
  have e : idx_main_v11 (ix3 b t k) = ix3 b t (0 : Fin 1) := funext fun a => Fin.ext (by
    match a with | ⟨0, _⟩ => rfl | ⟨1, _⟩ => rfl | ⟨2, _⟩ => rfl)
  rw [val_main_v12_apply, val_main_v11_apply, e, rowMean_at]
  rfl

/-- The sum of the squared deviations of row `(b, t)`. -/
theorem rowSq_at (b : Fin 8) (t : Fin 4000) :
    val_main_v7 (F := Ideal) X (ix2 b t)
      = ∑ k : Fin 1024, (X (ix3 b t k) - rowMean (fun k' => X (ix3 b t k'))) * (X (ix3 b t k) - rowMean (fun k' => X (ix3 b t k'))) := by
  rw [val_main_v7_apply, val_main_cst_1_apply, zeroWord, zero_add]
  refine Finset.sum_congr rfl fun k _ => ?_
  have e : idx_main_v7 (ix2 b t) k = ix3 b t k := funext fun a => Fin.ext (by
    match a with | ⟨0, _⟩ => rfl | ⟨1, _⟩ => rfl | ⟨2, _⟩ => rfl)
  rw [e, val_main_v6_apply, centred_at]
  rfl

/-- The reciprocal square root of row `(b, t)`'s variance plus `ε`, kept in a column. -/
theorem rowScale_at (b : Fin 8) (t : Fin 4000) (u : Fin 1) :
    val_main_v15 (F := Ideal) X (ix3 b t u)
      = Ideal.rsqrt (Ideal.div (∑ k : Fin 1024, (X (ix3 b t k) - rowMean (fun k' => X (ix3 b t k'))) * (X (ix3 b t k) - rowMean (fun k' => X (ix3 b t k')))) featCount + eps) := by
  have e : idx_main_v8 (ix3 b t u) = ix2 b t := funext fun a => Fin.ext (by match a with | ⟨0, _⟩ => rfl | ⟨1, _⟩ => rfl)
  rw [val_main_v15_apply, val_main_v14_apply, val_main_v10_apply, val_main_v8_apply, e, rowSq_at, val_main_v9_apply,
    val_main_cst_2_apply, val_main_v13_apply, val_main_cst_3_apply]
  rfl

/-- The row normalisation, at `(b, t, d)`. -/
theorem rowNorm_at (b : Fin 8) (t : Fin 4000) (d : Fin 1024) :
    val_main_v17 (F := Ideal) X (ix3 b t d) = rowNorm (fun k => X (ix3 b t k)) d := by
  have e : idx_main_v16 (ix3 b t d) = ix3 b t (0 : Fin 1) := funext fun a => Fin.ext (by
    match a with | ⟨0, _⟩ => rfl | ⟨1, _⟩ => rfl | ⟨2, _⟩ => rfl)
  rw [val_main_v17_apply, centred'_at, val_main_v16_apply, e, rowScale_at]
  rfl

/-! ## The slab normalisation -/

/-- The `[8, 5, 800, 1024]` view: its entry `(b, g, l, k)` is the array's entry at row `800 g + l` of batch `b`. -/
theorem view_at (b : Fin 8) (g : Fin 5) (l : Fin 800) (k : Fin 1024) :
    val_main_v18 (F := Ideal) X (ix4 b g l k) = X (ix3 b (rowOf g l) k) := by
  rw [val_main_v18_apply]
  refine congrArg X (funext fun a => Fin.ext ?_)
  have hb := b.isLt; have hg := g.isLt; have hl := l.isLt; have hk := k.isLt
  match a with
  | ⟨0, _⟩ => show (((b.val * 5 + g.val) * 800 + l.val) * 1024 + k.val) / 4096000 = b.val; omega
  | ⟨1, _⟩ => show (((b.val * 5 + g.val) * 800 + l.val) * 1024 + k.val) / 1024 % 4000 = g.val * 800 + l.val; omega
  | ⟨2, _⟩ => show (((b.val * 5 + g.val) * 800 + l.val) * 1024 + k.val) % 1024 = k.val; omega

/-- The sum of slab `(b, g)`: over its 800 rows and 1024 features. -/
theorem slabSum_at (b : Fin 8) (g : Fin 5) :
    val_main_v19 (F := Ideal) X (ix2 b g) = ∑ l : Fin 800, ∑ k : Fin 1024, X (ix3 b (rowOf g l) k) := by
  unfold val_main_v19
  simp only [Host.reduceAdd, Ideal.hostReduceAdd_def]
  rw [hostReduceAdd_lastTwo, val_main_cst_4_apply, zeroWord, zero_add]
  exact Finset.sum_congr rfl fun l _ => Finset.sum_congr rfl fun k _ => view_at X b g l k

/-- The mean of slab `(b, g)`, kept in a cell. -/
theorem slabMean_at (b : Fin 8) (g : Fin 5) (u u' : Fin 1) :
    val_main_v22 (F := Ideal) X (ix4 b g u u') = slabMean (fun l k => X (ix3 b (rowOf g l) k)) := by
  have e : idx_main_v20 (ix4 b g u u') = ix2 b g := funext fun a => Fin.ext (by match a with | ⟨0, _⟩ => rfl | ⟨1, _⟩ => rfl)
  rw [val_main_v22_apply, val_main_v20_apply, e, slabSum_at, val_main_v21_apply, val_main_cst_5_apply]
  rfl

/-- An entry of the view minus its slab's mean (the stage that is squared). -/
theorem slabCentred_at (b : Fin 8) (g : Fin 5) (l : Fin 800) (k : Fin 1024) :
    val_main_v24 (F := Ideal) X (ix4 b g l k)
      = X (ix3 b (rowOf g l) k) - slabMean (fun l' k' => X (ix3 b (rowOf g l') k')) := by
  have e : idx_main_v23 (ix4 b g l k) = ix4 b g (0 : Fin 1) (0 : Fin 1) := funext fun a => Fin.ext (by
    match a with | ⟨0, _⟩ => rfl | ⟨1, _⟩ => rfl | ⟨2, _⟩ => rfl | ⟨3, _⟩ => rfl)
  rw [val_main_v24_apply, view_at, val_main_v23_apply, e, slabMean_at]
  rfl

/-- An entry of the view minus its slab's mean (the stage that is scaled). -/
theorem slabCentred'_at (b : Fin 8) (g : Fin 5) (l : Fin 800) (k : Fin 1024) :
    val_main_v31 (F := Ideal) X (ix4 b g l k)
      = X (ix3 b (rowOf g l) k) - slabMean (fun l' k' => X (ix3 b (rowOf g l') k')) := by
  have e : idx_main_v30 (ix4 b g l k) = ix4 b g (0 : Fin 1) (0 : Fin 1) := funext fun a => Fin.ext (by
    match a with | ⟨0, _⟩ => rfl | ⟨1, _⟩ => rfl | ⟨2, _⟩ => rfl | ⟨3, _⟩ => rfl)
  rw [val_main_v31_apply, view_at, val_main_v30_apply, e, slabMean_at]
  rfl

/-- The sum of the squared deviations of slab `(b, g)`. -/
theorem slabSq_at (b : Fin 8) (g : Fin 5) :
    val_main_v26 (F := Ideal) X (ix2 b g)
      = ∑ l : Fin 800, ∑ k : Fin 1024,
          (X (ix3 b (rowOf g l) k) - slabMean (fun l' k' => X (ix3 b (rowOf g l') k')))
            * (X (ix3 b (rowOf g l) k) - slabMean (fun l' k' => X (ix3 b (rowOf g l') k'))) := by
  unfold val_main_v26
  simp only [Host.reduceAdd, Ideal.hostReduceAdd_def]
  rw [hostReduceAdd_lastTwo, val_main_cst_6_apply, zeroWord, zero_add]
  refine Finset.sum_congr rfl fun l _ => Finset.sum_congr rfl fun k _ => ?_
  rw [val_main_v25_apply, slabCentred_at]
  rfl

/-- The reciprocal square root of slab `(b, g)`'s variance plus `ε`, kept in a cell. -/
theorem slabScale_at (b : Fin 8) (g : Fin 5) (u u' : Fin 1) :
    val_main_v34 (F := Ideal) X (ix4 b g u u')
      = Ideal.rsqrt (Ideal.div (∑ l : Fin 800, ∑ k : Fin 1024,
          (X (ix3 b (rowOf g l) k) - slabMean (fun l' k' => X (ix3 b (rowOf g l') k')))
            * (X (ix3 b (rowOf g l) k) - slabMean (fun l' k' => X (ix3 b (rowOf g l') k')))) slabCount + eps) := by
  have e : idx_main_v27 (ix4 b g u u') = ix2 b g := funext fun a => Fin.ext (by match a with | ⟨0, _⟩ => rfl | ⟨1, _⟩ => rfl)
  rw [val_main_v34_apply, val_main_v33_apply, val_main_v29_apply, val_main_v27_apply, e, slabSq_at, val_main_v28_apply,
    val_main_cst_7_apply, val_main_v32_apply, val_main_cst_8_apply]
  rfl

/-- The slab normalisation on the view, at `(b, g, l, k)`. -/
theorem slabNorm_view_at (b : Fin 8) (g : Fin 5) (l : Fin 800) (k : Fin 1024) :
    val_main_v36 (F := Ideal) X (ix4 b g l k) = slabNorm (fun l' k' => X (ix3 b (rowOf g l') k')) l k := by
  have e : idx_main_v35 (ix4 b g l k) = ix4 b g (0 : Fin 1) (0 : Fin 1) := funext fun a => Fin.ext (by
    match a with | ⟨0, _⟩ => rfl | ⟨1, _⟩ => rfl | ⟨2, _⟩ => rfl | ⟨3, _⟩ => rfl)
  rw [val_main_v36_apply, slabCentred'_at, val_main_v35_apply, e, slabScale_at]
  rfl

/-- Back on the array: row `t` reads its slab `t / 800` at position `t % 800`. -/
theorem slabNorm_at (b : Fin 8) (t : Fin 4000) (d : Fin 1024) :
    val_main_v37 (F := Ideal) X (ix3 b t d)
      = slabNorm (fun l k => X (ix3 b (rowOf (slabOf t) l) k)) (posOf t) d := by
  have e : idx_main_v37 (ix3 b t d) = ix4 b (slabOf t) (posOf t) d := funext fun a => Fin.ext (by
    have hb := b.isLt; have ht := t.isLt; have hd := d.isLt
    match a with
    | ⟨0, _⟩ => show ((b.val * 4000 + t.val) * 1024 + d.val) / 4096000 = b.val; omega
    | ⟨1, _⟩ => show ((b.val * 4000 + t.val) * 1024 + d.val) / 819200 % 5 = t.val / 800; omega
    | ⟨2, _⟩ => show ((b.val * 4000 + t.val) * 1024 + d.val) / 1024 % 800 = t.val % 800; omega
    | ⟨3, _⟩ => show ((b.val * 4000 + t.val) * 1024 + d.val) % 1024 = d.val; omega)
  rw [val_main_v37_apply, e, slabNorm_view_at]

/-! ## The blend -/

/-- The reference's result array is the specification, index by index. -/
theorem result_eq (W B : (⟨S1024, .f32⟩ : BufTy).Contents (Elt Ideal)) :
    val_main_v48 (F := Ideal) X W B = result X W B := by
  funext i
  obtain ⟨b, t, d, rfl⟩ : ∃ (b : Fin 8) (t : Fin 4000) (d : Fin 1024), i = ix3 b t d := ⟨i 0, i 1, i 2, eq_ix3 i⟩
  have ew : idx_main_v43 (idx_main_v44 (ix3 b t d)) = ix1 d := funext fun a => Fin.ext (by match a with | ⟨0, _⟩ => rfl)
  have eb : idx_main_v46 (idx_main_v47 (ix3 b t d)) = ix1 d := funext fun a => Fin.ext (by match a with | ⟨0, _⟩ => rfl)
  rw [val_main_v48_apply, val_main_v45_apply, val_main_v42_apply, val_main_v39_apply, val_main_v38_apply,
    val_main_cst_9_apply, slabNorm_at, val_main_v41_apply, val_main_v40_apply, val_main_cst_10_apply, rowNorm_at,
    val_main_v44_apply, val_main_v43_apply, ew, val_main_v47_apply, val_main_v46_apply, eb]
  rfl

end Cert.ReferenceIdeal.RefValue

end
-- ==== Proof.lean ====
/-
  The kernel and its reference compute one function over the extended reals: a blend of two normalisations.

  The input `X` is `[8, 4000, 1024]`: 8 batches of 4000 rows of 1024 features, each batch's rows in 5 consecutive
  slabs of 800. For every entry both programs form
    the row normalisation   (x − μ_row) · rsqrt (σ²_row + ε),   mean and variance over the row's 1024 entries,
    the slab normalisation  (x − μ_slab) · rsqrt (σ²_slab + ε), mean and variance over the slab's 800 · 1024 entries,
  and return (½ · slab + ½ · row) · W[d] + B[d]. The means are sums divided by 1024 and by 819200, and these two
  divisors, ε and ½ are the same binary words in both programs, in the same places, so none is evaluated.

  The kernel runs on a grid of 8 · 5 points; point `(b, g)` loads slab `g` of batch `b` whole and writes the same
  block of the output. It takes the slab's sums in two steps, along the features and then along the rows; the
  reference reshapes `X` to `[8, 5, 800, 1024]` and sums over the last two axes at once. Read index by index both
  are the double sum over a slab's rows and features: a host sum over two axes is the sum over the pairs of
  dropped coordinates, and the kernel's two steps are that double sum as written. No law beyond this regrouping
  joins the two sides, so the precondition is never opened.

  Kernel side: the body's output block entry by entry (Proof/KernelBlock.lean), the 40 blocks tiling the array
  (Proof/KernelValue.lean). Reference side: its stages read at an index, in program order (Proof/RefValue.lean).
  Both end at the one function `Cert.BlendNorm.result` (Proof/NormSpec.lean) of the argument arrays. The three
  frames are the generated frame runs (the reference's its generated run with the result dropped), and the ideal
  pass rewrote nothing, so `preserves` has no conjunct.
-/
import proofs.«100849_j57166014710001_1_alg».proof.Defs
import proofs.«100849_j57166014710001_1_alg».proof.Proof.Gen.Kernel
import proofs.«100849_j57166014710001_1_alg».proof.Proof.Gen.Kernel.Skeleton
import proofs.«100849_j57166014710001_1_alg».proof.Proof.Gen.Kernel.Launch
import proofs.«100849_j57166014710001_1_alg».proof.Proof.Gen.Kernel.Points
import proofs.«100849_j57166014710001_1_alg».proof.Proof.Gen.Kernel.Frame
import proofs.«100849_j57166014710001_1_alg».proof.Proof.Gen.KernelIdeal
import proofs.«100849_j57166014710001_1_alg».proof.Proof.Gen.KernelIdeal.Skeleton
import proofs.«100849_j57166014710001_1_alg».proof.Proof.Gen.KernelIdeal.Launch
import proofs.«100849_j57166014710001_1_alg».proof.Proof.Gen.KernelIdeal.Points
import proofs.«100849_j57166014710001_1_alg».proof.Proof.Gen.KernelIdeal.Frame
import proofs.«100849_j57166014710001_1_alg».proof.Proof.Gen.ReferenceIdeal
import proofs.«100849_j57166014710001_1_alg».proof.Proof.Gen.Pre_finite_inputs
import proofs.«100849_j57166014710001_1_alg».proof.Proof.Gen.KernelIdeal.Value
import proofs.«100849_j57166014710001_1_alg».proof.Proof.Gen.ReferenceIdeal.Run
import proofs.«100849_j57166014710001_1_alg».proof.Proof.Gen.ReferenceIdeal.Read
import proofs.«100849_j57166014710001_1_alg».proof.Proof.KernelValue
import proofs.«100849_j57166014710001_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments unchanged: its generated frame. -/
theorem frame_k : Cert.frame_Kernel (hKernel := Cert.Kernel.Gen.facts) (hPre_finite_inputs := Cert.Pre_finite_inputs.Gen.facts) :=
  fun m ρ _ => Cert.Kernel.Gen.frame m ρ

/-- The idealized kernel likewise. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference is a sequence of host operations: its run, with what it says of the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories that agree on the arguments both idealized programs end with the blended normalisation of those
    arguments in their result array: the kernel's blocks tile it, and the reference's last stage is it. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v48_eq, Cert.ReferenceIdeal.RefValue.result_eq,
    (hagree c).1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
